-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S64x4096 : Shape := ⟨2, ![64, 4096]⟩
abbrev S4096x64 : Shape := ⟨2, ![4096, 64]⟩
abbrev S32x4096 : Shape := ⟨2, ![32, 4096]⟩
abbrev S64x32 : Shape := ⟨2, ![64, 32]⟩
abbrev S32x64 : Shape := ⟨2, ![32, 64]⟩
abbrev S4096x32 : Shape := ⟨2, ![4096, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S32x4096 : S_.BroadcastsInDim S32x4096 (![] : Fin 0 → Fin S32x4096.rank)
  reducesTo_S32x4096_S_d0_1 : S32x4096.ReducesTo [0, 1] S_
  bcast_S_S64x32 : S_.BroadcastsInDim S64x32 (![] : Fin 0 → Fin S64x32.rank)
  reducesTo_S64x32_S_d0_1 : S64x32.ReducesTo [0, 1] S_
  bcast_S_S32x64 : S_.BroadcastsInDim S32x64 (![] : Fin 0 → Fin S32x64.rank)
  reducesTo_S32x64_S_d0_1 : S32x64.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part2 {F : FTy → Type} [FloatOps F] (main_arg7 : FVec F S32x64 .f32) (main_arg8 : FVec F S4096x32 .f32) (main_v33 : IVec S_ 1) : IVec S_ 1 :=
  let main_v34 : FVec F S32x64 .f32 := Host.absf main_arg7
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S4096x32 .f32 := Host.absf main_arg8
  let main_cst_14 : FVec F S_ .f32 := constant S_ .f32 0x7F800000#32
  let main_v40 : FVec F S4096x32 .f32 := broadcastInDim S4096x32 ![] bcast_S_S4096x32 main_cst_14
  let main_v41 : IVec S4096x32 1 := cmpf .olt main_v39 main_v40
  let main_c_15 : IVec S_ 1 := constantI S_ 1 1#1
  let main_v42 : IVec S_ 1 := (fun x v => Host.reduce IntOp.andi x v reducesTo_S4096x32_S_d0_1 h_S_) main_v41 main_c_15
  let main_v43 : IVec S_ 1 := andi main_v38 main_v42
  main_v43

def fn_part1 {F : FTy → Type} [FloatOps F] (main_arg4 : FVec F S4096x64 .f32) (main_arg5 : FVec F S32x4096 .f32) (main_arg6 : FVec F S64x32 .f32) (main_arg7 : FVec F S32x64 .f32) (main_arg8 : FVec F S4096x32 .f32) (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  let main_v19 : FVec F S4096x64 .f32 := Host.absf main_arg4
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S32x4096 .f32 := Host.absf main_arg5
  let main_cst_8 : FVec F S_ .f32 := constant S_ .f32 0x7F800000#32
  let main_v25 : FVec F S32x4096 .f32 := broadcastInDim S32x4096 ![] bcast_S_S32x4096 main_cst_8
  let main_v26 : IVec S32x4096 1 := cmpf .olt main_v24 main_v25
  let main_c_9 : IVec S_ 1 := constantI S_ 1 1#1
  let main_v27 : IVec S_ 1 := (fun x v => Host.reduce IntOp.andi x v reducesTo_S32x4096_S_d0_1 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_arg8 main_v33

def fn {F : FTy → Type} [FloatOps F] (main_arg0 : FVec F S4x2048x4096 .f32) (main_arg1 : FVec F S4096x4096 .f32) (main_arg2 : FVec F S4096 .f32) (main_arg3 : FVec F S64x4096 .f32) (main_arg4 : FVec F S4096x64 .f32) (main_arg5 : FVec F S32x4096 .f32) (main_arg6 : FVec F S64x32 .f32) (main_arg7 : FVec F S32x64 .f32) (main_arg8 : FVec F S4096x32 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_arg4 main_arg5 main_arg6 main_arg7 main_arg8 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S64x4096 : Shape := ⟨2, ![64, 4096]⟩
abbrev S4096x64 : Shape := ⟨2, ![4096, 64]⟩
abbrev S32x4096 : Shape := ⟨2, ![32, 4096]⟩
abbrev S64x32 : Shape := ⟨2, ![64, 32]⟩
abbrev S32x64 : Shape := ⟨2, ![32, 64]⟩
abbrev S4096x32 : Shape := ⟨2, ![4096, 32]⟩
abbrev S_ : Shape := ⟨0, ![]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 28
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S64x4096, .f32⟩
  | .hbm, ⟨4, _⟩ => ⟨S4096x64, .f32⟩
  | .hbm, ⟨5, _⟩ => ⟨S32x4096, .f32⟩
  | .hbm, ⟨6, _⟩ => ⟨S64x32, .f32⟩
  | .hbm, ⟨7, _⟩ => ⟨S32x64, .f32⟩
  | .hbm, ⟨8, _⟩ => ⟨S4096x32, .f32⟩
  | .hbm, ⟨9, _⟩ => ⟨S4096x4096, .f32⟩
  | .hbm, ⟨10, _⟩ => ⟨S64x4096, .f32⟩
  | .hbm, ⟨11, _⟩ => ⟨S32x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .bf16⟩
  | .hbm, ⟨23, _⟩ => ⟨S8192x4096, .f32⟩
  | .hbm, ⟨24, _⟩ => ⟨S8192x4096, .bf16⟩
  | .hbm, ⟨25, _⟩ => ⟨S1x4096, .f32⟩
  | .hbm, ⟨26, _⟩ => ⟨S8192x4096, .f32⟩
  | .hbm, ⟨27, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  transposes_S4096x4096_S4096x4096_1_0 : S4096x4096.Transposes [1, 0] S4096x4096
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S4096x64_S64x4096_S4096x4096_1_0_0_1_n_n_wf : DotDims.WF S4096x64 S64x4096 S4096x4096 [1] [0] [0] [1] [] []
  dot_S64x32_S32x4096_S64x4096_1_0_0_1_n_n_wf : DotDims.WF S64x32 S32x4096 S64x4096 [1] [0] [0] [1] [] []
  dot_S32x64_S64x4096_S32x4096_1_0_0_1_n_n_wf : DotDims.WF S32x64 S64x4096 S32x4096 [1] [0] [0] [1] [] []
  dot_S4096x32_S32x4096_S4096x4096_1_0_0_1_n_n_wf : DotDims.WF S4096x32 S32x4096 S4096x4096 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S64x32_S32x4096_S64x4096_1_0_0_1_n_n : DotDims S64x32 S32x4096 S64x4096 where
  lhsContracting := [1]
  rhsContracting := [0]
  lhsNonContracting := [0]
  rhsNonContracting := [1]
  lhsBatch := []
  rhsBatch := []
  wf := dot_S64x32_S32x4096_S64x4096_1_0_0_1_n_n_wf
def dot_S32x64_S64x4096_S32x4096_1_0_0_1_n_n : DotDims S32x64 S64x4096 S32x4096 where
  lhsContracting := [1]
  rhsContracting := [0]
  lhsNonContracting := [0]
  rhsNonContracting := [1]
  lhsBatch := []
  rhsBatch := []
  wf := dot_S32x64_S64x4096_S32x4096_1_0_0_1_n_n_wf
def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v13) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S64x4096 : Shape := ⟨2, ![64, 4096]⟩
abbrev S4096x64 : Shape := ⟨2, ![4096, 64]⟩
abbrev S32x4096 : Shape := ⟨2, ![32, 4096]⟩
abbrev S64x32 : Shape := ⟨2, ![64, 32]⟩
abbrev S32x64 : Shape := ⟨2, ![32, 64]⟩
abbrev S4096x32 : Shape := ⟨2, ![4096, 32]⟩
abbrev S1x1x4096 : Shape := ⟨3, ![1, 1, 4096]⟩
abbrev S4x2048x64 : Shape := ⟨3, ![4, 2048, 64]⟩
abbrev S4x2048x32 : Shape := ⟨3, ![4, 2048, 32]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S64x4096, .f32⟩
  | .hbm, ⟨4, _⟩ => ⟨S4096x64, .f32⟩
  | .hbm, ⟨5, _⟩ => ⟨S32x4096, .f32⟩
  | .hbm, ⟨6, _⟩ => ⟨S64x32, .f32⟩
  | .hbm, ⟨7, _⟩ => ⟨S32x64, .f32⟩
  | .hbm, ⟨8, _⟩ => ⟨S4096x32, .f32⟩
  | .hbm, ⟨9, _⟩ => ⟨S4x2048x4096, .f32⟩
  | .hbm, ⟨10, _⟩ => ⟨S1x1x4096, .f32⟩
  | .hbm, ⟨11, _⟩ => ⟨S4x2048x4096, .f32⟩
  | .hbm, ⟨12, _⟩ => ⟨S4x2048x4096, .f32⟩
  | .hbm, ⟨13, _⟩ => ⟨S4x2048x64, .f32⟩
  | .hbm, ⟨14, _⟩ => ⟨S4x2048x4096, .f32⟩
  | .hbm, ⟨15, _⟩ => ⟨S4x2048x32, .f32⟩
  | .hbm, ⟨16, _⟩ => ⟨S4x2048x64, .f32⟩
  | .hbm, ⟨17, _⟩ => ⟨S4x2048x32, .f32⟩
  | .hbm, ⟨18, _⟩ => ⟨S4x2048x4096, .f32⟩
  | .hbm, ⟨19, _⟩ => ⟨S_, .f32⟩
  | .hbm, ⟨20, _⟩ => ⟨S4x2048x4096, .f32⟩
  | .hbm, ⟨21, _⟩ => ⟨S4x2048x4096, .f32⟩
  | .hbm, ⟨22, _⟩ => ⟨S4x2048x4096, .f32⟩
  | .hbm, ⟨23, _⟩ => ⟨S_, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S64x4096_S4x2048x64_2_1_01_0_n_n_wf : DotDims.WF S4x2048x4096 S64x4096 S4x2048x64 [2] [1] [0, 1] [0] [] []
  dot_S4x2048x64_S4096x64_S4x2048x4096_2_1_01_0_n_n_wf : DotDims.WF S4x2048x64 S4096x64 S4x2048x4096 [2] [1] [0, 1] [0] [] []
  dot_S4x2048x4096_S32x4096_S4x2048x32_2_1_01_0_n_n_wf : DotDims.WF S4x2048x4096 S32x4096 S4x2048x32 [2] [1] [0, 1] [0] [] []
  dot_S4x2048x32_S64x32_S4x2048x64_2_1_01_0_n_n_wf : DotDims.WF S4x2048x32 S64x32 S4x2048x64 [2] [1] [0, 1] [0] [] []
  dot_S4x2048x64_S32x64_S4x2048x32_2_1_01_0_n_n_wf : DotDims.WF S4x2048x64 S32x64 S4x2048x32 [2] [1] [0, 1] [0] [] []
  dot_S4x2048x32_S4096x32_S4x2048x4096_2_1_01_0_n_n_wf : DotDims.WF S4x2048x32 S4096x32 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S64x4096_S4x2048x64_2_1_01_0_n_n : DotDims S4x2048x4096 S64x4096 S4x2048x64 where
  lhsContracting := [2]
  rhsContracting := [1]
  lhsNonContracting := [0, 1]
  rhsNonContracting := [0]
  lhsBatch := []
  rhsBatch := []
  wf := dot_S4x2048x4096_S64x4096_S4x2048x64_2_1_01_0_n_n_wf
def dot_S4x2048x64_S4096x64_S4x2048x4096_2_1_01_0_n_n : DotDims S4x2048x64 S4096x64 S4x2048x4096 where
  lhsContracting := [2]
  rhsContracting := [1]
  lhsNonContracting := [0, 1]
  rhsNonContracting := [0]
  lhsBatch := []
  rhsBatch := []
  wf := dot_S4x2048x64_S4096x64_S4x2048x4096_2_1_01_0_n_n_wf
def dot_S4x2048x4096_S32x4096_S4x2048x32_2_1_01_0_n_n : DotDims S4x2048x4096 S32x4096 S4x2048x32 where
  lhsContracting := [2]
  rhsContracting := [1]
  lhsNonContracting := [0, 1]
  rhsNonContracting := [0]
  lhsBatch := []
  rhsBatch := []
  wf := dot_S4x2048x4096_S32x4096_S4x2048x32_2_1_01_0_n_n_wf
def dot_S4x2048x32_S64x32_S4x2048x64_2_1_01_0_n_n : DotDims S4x2048x32 S64x32 S4x2048x64 where
  lhsContracting := [2]
  rhsContracting := [1]
  lhsNonContracting := [0, 1]
  rhsNonContracting := [0]
  lhsBatch := []
  rhsBatch := []
  wf := dot_S4x2048x32_S64x32_S4x2048x64_2_1_01_0_n_n_wf
def dot_S4x2048x64_S32x64_S4x2048x32_2_1_01_0_n_n : DotDims S4x2048x64 S32x64 S4x2048x32 where
  lhsContracting := [2]
  rhsContracting := [1]
  lhsNonContracting := [0, 1]
  rhsNonContracting := [0]
  lhsBatch := []
  rhsBatch := []
  wf := dot_S4x2048x64_S32x64_S4x2048x32_2_1_01_0_n_n_wf
def dot_S4x2048x32_S4096x32_S4x2048x4096_2_1_01_0_n_n : DotDims S4x2048x32 S4096x32 S4x2048x4096 where
  lhsContracting := [2]
  rhsContracting := [1]
  lhsNonContracting := [0, 1]
  rhsNonContracting := [0]
  lhsBatch := []
  rhsBatch := []
  wf := dot_S4x2048x32_S4096x32_S4x2048x4096_2_1_01_0_n_n_wf

class Facts : Prop extends Facts₀ where

variable [Facts]
-- ==== Proof.KernelPieces.lean ====
/-
  What one run of the kernel body leaves behind, as plain functions of what it loaded.

  The body keeps a running sum in a scratch block. At the first step of a run of four it clears the scratch and adds
  the product of its two input blocks, so it leaves `0 + x·w`; at a later step it leaves `acc + x·w` over what the step
  before left; at the last step it also writes `acc' + bias` to the output block, `acc'` being the sum it has just
  stored. Each statement below is for any float instance.
-/
import proofs.«160152_j10479720202377_1_alg».proof.Proof.Gen.KernelIdeal.Frame
import Idealize.ShloMosaic.Lib.Pipeline.Value

set_option maxRecDepth 16384

noncomputable section

namespace Cert.Lora.Pieces

open Idealize.ShloMosaic Idealize.ShloMosaic.TcCoe Idealize.ShloMosaic.Tactic Idealize.SL.Sem
open Cert.KernelIdeal Cert.KernelIdeal.Gen

variable {F : FTy → Type} [FloatOps F]

/-- The zero offsets of a whole two-axis block. -/
theorem offsets_zero : (![0, 0] : Fin 2 → Nat) = fun _ => 0 := by
  funext a; match a with | ⟨0, _⟩ => rfl | ⟨1, _⟩ => rfl

/-- First step of a run: the scratch is cleared, read back, and the product of the two input blocks added. -/
theorem scratch_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 (F := F) c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) offsets_zero]
  simp only [View.readCov_unit_zero (S := S1024x1024) _ offsets_zero, View.readAt_eq_ld, harg3.read_unread,
    harg4.read_unread, View.ld_unit_zero (S := S1024x1024) offsets_zero]

/-- A middle step: the product of the two input blocks added to what the step before left. -/
theorem scratch_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 (F := F) c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero offsets_zero]
  simp only [View.readAt_eq_ld, harg7.read_unread, harg3.read_unread, harg4.read_unread,
    View.ld_unit_zero (S := S1024x1024) offsets_zero]

/-- The last step leaves the same sum in the scratch as a middle step would. -/
theorem scratch_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 (F := F) c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero offsets_zero]
  simp only [View.readAt_eq_ld, harg7.read_unread, harg3.read_unread, harg4.read_unread,
    View.ld_unit_zero (S := S1024x1024) offsets_zero]

/-- The last step writes to the output block the sum it has just stored, plus the bias row on every row. -/
theorem out_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 (F := F) c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero offsets_zero]
  simp only [View.readCov_unit_zero (S := S1024x1024) _ offsets_zero, View.readAt_eq_ld, harg7.read_unread,
    harg3.read_unread, harg4.read_unread, harg5.read_unread, View.ld_unit_zero (S := S1024x1024) offsets_zero,
    View.ld_unit_zero (S := S1x1024) offsets_zero]

end Cert.Lora.Pieces

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.LoraAlgebra.lean ====
/-
  One output entry of a linear layer with two low-rank updates, written two ways.

  FOLDED: the updates are multiplied out into the weight first. Row `o` of the folded weight is
    weff o i = (W o i + c₄ · Σ_r B o r · A r i) + c₂ · Σ_r B₂ o r · Σ_q B₁ r q · Σ_t A₂ q t · A₁ t i,
  and the entry is the activation row against it, the contracted axis of length 4096 cut into four runs of 1024
  that are added up one after the other from zero, plus the bias.

  UNFOLDED: the updates are applied to the activations, one thin product after the other,
    ((Σ_i x i · W o i + b o) + c₄ · Σ_r (Σ_i x i · A r i) · B o r)
      + c₂ · Σ_r (Σ_q (Σ_t (Σ_i x i · A₁ t i) · A₂ q t) · B₁ r q) · B₂ o r.

  Over the reals the two are equal: multiplication distributes over the finite sums, the sums commute, and a sum over
  4096 places is the sum over the four runs. On the extended reals the same holds when every number involved is a
  real, because the reals embed as a subsemiring closed under finite sums.

  Order of the argument. First the embedding is shown to carry finite sums to finite sums, by adding one term at a
  time. Then, over the reals: the places `1024 · k + κ` run through every place exactly once, so the four runs make
  up the whole axis; contracting a row against a thin product `Σ_t B t · A t i` gives `Σ_t (Σ_i x i · A t i) · B t`,
  with or without a scalar in front; applying this once to the first update and three times, from the outermost
  factor inward, to the second turns the folded form into the unfolded one, up to the order of the summands.
  Last, each side of the claim is the image of the corresponding real expression, since the embedding also carries
  `0`, `+` and `·` to themselves, and so the two images agree.
-/
import Mathlib.Data.EReal.Operations
import Mathlib.Algebra.BigOperators.Fin
import Mathlib.Algebra.BigOperators.Ring.Finset
import Mathlib.Data.Fintype.BigOperators
import Mathlib.Logic.Equiv.Fin.Basic
import Mathlib.Tactic.Ring

noncomputable section

open scoped BigOperators

namespace Cert.Lora

/-- Place `1024 · k + κ` of the contracted axis: run `k`, offset `κ` inside the run. -/
def pos (k : Fin 4) (κ : Fin 1024) : Fin 4096 := ⟨1024 * k.val + κ.val, by omega⟩

section Entry

variable (c4 c2 : EReal) (xr Wo : Fin 4096 → EReal) (bo : EReal)
  (A : Fin 64 → Fin 4096 → EReal) (Bo : Fin 64 → EReal) (A1 : Fin 32 → Fin 4096 → EReal)
  (A2 : Fin 64 → Fin 32 → EReal) (B1 : Fin 32 → Fin 64 → EReal) (B2o : Fin 32 → EReal)

/-- Row `o` of the folded weight at column `i`: `Wo`, `Bo`, `B2o` are row `o` of the dense weight and of the two
    up-projections. -/
def weffRow (i : Fin 4096) : EReal :=
  (Wo i + c4 * ∑ r : Fin 64, Bo r * A r i)
    + c2 * ∑ r : Fin 32, B2o r * ∑ q : Fin 64, B1 r q * ∑ t : Fin 32, A2 q t * A1 t i

/-- The folded form of the entry: four runs of 1024 products added up from zero, then the bias. -/
def kerEntry : EReal :=
  (0 + ∑ k : Fin 4, ∑ κ : Fin 1024, xr (pos k κ) * weffRow c4 c2 Wo A Bo A1 A2 B1 B2o (pos k κ)) + bo

/-- The unfolded form of the entry. -/
def refEntry : EReal :=
  ((∑ i : Fin 4096, xr i * Wo i + bo) + c4 * ∑ r : Fin 64, (∑ i : Fin 4096, xr i * A r i) * Bo r)
    + c2 * ∑ r : Fin 32, (∑ q : Fin 64, (∑ t : Fin 32, (∑ i : Fin 4096, xr i * A1 t i) * A2 q t) * B1 r q) * B2o r

end Entry

/-- The embedding of the reals into the extended reals carries a finite sum to the sum of the images:
    it does so for the empty sum and for one more term, since it carries `0` to `0` and `+` to `+`. -/
theorem coe_sum {ι : Type*} (s : Finset ι) (f : ι → ℝ) :
    ((∑ i ∈ s, f i : ℝ) : EReal) = ∑ i ∈ s, (f i : EReal) := by
  classical
  induction s using Finset.induction_on with
  | empty => simp only [Finset.sum_empty, EReal.coe_zero]
  | insert a s ha ih => rw [Finset.sum_insert ha, Finset.sum_insert ha, EReal.coe_add, ih]

/-- A sum over the 4096 places is the sum over the four runs of 1024: every place is `1024 · k + κ` for exactly
    one run `k` and one offset `κ`. -/
theorem sum_runs (f : Fin 4096 → ℝ) :
    ∑ i : Fin 4096, f i = ∑ k : Fin 4, ∑ κ : Fin 1024, f (pos k κ) := by
  rw [← Fintype.sum_prod_type (f := fun p : Fin 4 × Fin 1024 => f (pos p.1 p.2))]
  refine (Fintype.sum_equiv (finProdFinEquiv : Fin 4 × Fin 1024 ≃ Fin (4 * 1024)) _ _ ?_).symm
  rintro ⟨k, κ⟩
  refine congrArg f (Fin.ext ?_)
  show 1024 * k.val + κ.val = κ.val + 1024 * k.val
  exact Nat.add_comm _ _

/-- Contracting a row against a thin product: `Σ_i x i · (Σ_t B t · A t i) = Σ_t (Σ_i x i · A t i) · B t`.
    Distribute, exchange the two sums, and reorder each product. -/
theorem swap_one {ι τ : Type*} [Fintype ι] [Fintype τ] (x : ι → ℝ) (A : τ → ι → ℝ) (B : τ → ℝ) :
    ∑ i, x i * ∑ t, B t * A t i = ∑ t, (∑ i, x i * A t i) * B t := by
  simp only [Finset.mul_sum, Finset.sum_mul]
  rw [Finset.sum_comm]
  refine Finset.sum_congr rfl fun t _ => Finset.sum_congr rfl fun i _ => ?_
  ring

/-- The same with a scalar in front of the thin product: the scalar comes out of the whole contraction. -/
theorem swap_scaled {ι τ : Type*} [Fintype ι] [Fintype τ] (c : ℝ) (x : ι → ℝ) (A : τ → ι → ℝ)
    (B : τ → ℝ) :
    ∑ i, x i * (c * ∑ t, B t * A t i) = c * ∑ t, (∑ i, x i * A t i) * B t := by
  rw [← swap_one, Finset.mul_sum]
  refine Finset.sum_congr rfl fun i _ => ?_
  ring

/-- The two forms of the entry agree over the reals. -/
theorem real_identity (c4 c2 : ℝ) (x W : Fin 4096 → ℝ) (b : ℝ)
    (A : Fin 64 → Fin 4096 → ℝ) (Bo : Fin 64 → ℝ) (A1 : Fin 32 → Fin 4096 → ℝ)
    (A2 : Fin 64 → Fin 32 → ℝ) (B1 : Fin 32 → Fin 64 → ℝ) (B2o : Fin 32 → ℝ) :
    (0 + ∑ k : Fin 4, ∑ κ : Fin 1024, x (pos k κ) *
        ((W (pos k κ) + c4 * ∑ r : Fin 64, Bo r * A r (pos k κ))
          + c2 * ∑ r : Fin 32, B2o r * ∑ q : Fin 64, B1 r q * ∑ t : Fin 32, A2 q t * A1 t (pos k κ))) + b
      = ((∑ i : Fin 4096, x i * W i + b) + c4 * ∑ r : Fin 64, (∑ i : Fin 4096, x i * A r i) * Bo r)
        + c2 * ∑ r : Fin 32,
            (∑ q : Fin 64, (∑ t : Fin 32, (∑ i : Fin 4096, x i * A1 t i) * A2 q t) * B1 r q) * B2o r := by
  -- the four runs together are the whole contracted axis
  rw [← sum_runs (fun i => x i *
        ((W i + c4 * ∑ r : Fin 64, Bo r * A r i)
          + c2 * ∑ r : Fin 32, B2o r * ∑ q : Fin 64, B1 r q * ∑ t : Fin 32, A2 q t * A1 t i))]
  -- the row is its dense part plus its two updates, and the contraction is additive in the row
  have hsplit : ∑ i : Fin 4096, x i *
        ((W i + c4 * ∑ r : Fin 64, Bo r * A r i)
          + c2 * ∑ r : Fin 32, B2o r * ∑ q : Fin 64, B1 r q * ∑ t : Fin 32, A2 q t * A1 t i)
      = (∑ i : Fin 4096, x i * W i + ∑ i : Fin 4096, x i * (c4 * ∑ r : Fin 64, Bo r * A r i))
        + ∑ i : Fin 4096, x i *
            (c2 * ∑ r : Fin 32, B2o r * ∑ q : Fin 64, B1 r q * ∑ t : Fin 32, A2 q t * A1 t i) := by
    simp only [mul_add, Finset.sum_add_distrib]
  -- the deep update: peel one thin factor at a time, innermost last
  have hq : ∀ q : Fin 64, ∑ i : Fin 4096, x i * ∑ t : Fin 32, A2 q t * A1 t i
      = ∑ t : Fin 32, (∑ i : Fin 4096, x i * A1 t i) * A2 q t :=
    fun q => swap_one x A1 (A2 q)
  have hr : ∀ r : Fin 32,
      ∑ i : Fin 4096, x i * ∑ q : Fin 64, B1 r q * ∑ t : Fin 32, A2 q t * A1 t i
      = ∑ q : Fin 64, (∑ t : Fin 32, (∑ i : Fin 4096, x i * A1 t i) * A2 q t) * B1 r q := by
    intro r
    rw [swap_one x (fun q i => ∑ t : Fin 32, A2 q t * A1 t i) (B1 r)]
    exact Finset.sum_congr rfl fun q _ => by rw [hq q]
  have hdeep : ∑ i : Fin 4096, x i *
        (c2 * ∑ r : Fin 32, B2o r * ∑ q : Fin 64, B1 r q * ∑ t : Fin 32, A2 q t * A1 t i)
      = c2 * ∑ r : Fin 32,
          (∑ q : Fin 64, (∑ t : Fin 32, (∑ i : Fin 4096, x i * A1 t i) * A2 q t) * B1 r q) * B2o r := by
    rw [swap_scaled c2 x (fun r i => ∑ q : Fin 64, B1 r q * ∑ t : Fin 32, A2 q t * A1 t i) B2o]
    exact congrArg (c2 * ·) (Finset.sum_congr rfl fun r _ => by rw [hr r])
  rw [hsplit, swap_scaled c4 x A Bo, hdeep]
  ring

/-- On real inputs the folded entry is the image of a real number. -/
theorem kerEntry_coe (c4 c2 : ℝ) (xr Wo : Fin 4096 → ℝ) (bo : ℝ)
    (A : Fin 64 → Fin 4096 → ℝ) (Bo : Fin 64 → ℝ) (A1 : Fin 32 → Fin 4096 → ℝ)
    (A2 : Fin 64 → Fin 32 → ℝ) (B1 : Fin 32 → Fin 64 → ℝ) (B2o : Fin 32 → ℝ) :
    kerEntry (c4 : EReal) (c2 : EReal) (fun i => (xr i : EReal)) (fun i => (Wo i : EReal)) (bo : EReal)
        (fun r i => (A r i : EReal)) (fun r => (Bo r : EReal)) (fun t i => (A1 t i : EReal))
        (fun q t => (A2 q t : EReal)) (fun r q => (B1 r q : EReal)) (fun r => (B2o r : EReal))
      = (((0 + ∑ k : Fin 4, ∑ κ : Fin 1024, xr (pos k κ) *
            ((Wo (pos k κ) + c4 * ∑ r : Fin 64, Bo r * A r (pos k κ))
              + c2 * ∑ r : Fin 32, B2o r * ∑ q : Fin 64, B1 r q * ∑ t : Fin 32, A2 q t * A1 t (pos k κ)))
          + bo : ℝ) : EReal) := by
  simp only [kerEntry, weffRow, coe_sum, EReal.coe_add, EReal.coe_mul, EReal.coe_zero]

/-- On real inputs the unfolded entry is the image of a real number. -/
theorem refEntry_coe (c4 c2 : ℝ) (xr Wo : Fin 4096 → ℝ) (bo : ℝ)
    (A : Fin 64 → Fin 4096 → ℝ) (Bo : Fin 64 → ℝ) (A1 : Fin 32 → Fin 4096 → ℝ)
    (A2 : Fin 64 → Fin 32 → ℝ) (B1 : Fin 32 → Fin 64 → ℝ) (B2o : Fin 32 → ℝ) :
    refEntry (c4 : EReal) (c2 : EReal) (fun i => (xr i : EReal)) (fun i => (Wo i : EReal)) (bo : EReal)
        (fun r i => (A r i : EReal)) (fun r => (Bo r : EReal)) (fun t i => (A1 t i : EReal))
        (fun q t => (A2 q t : EReal)) (fun r q => (B1 r q : EReal)) (fun r => (B2o r : EReal))
      = (((((∑ i : Fin 4096, xr i * Wo i + bo) + c4 * ∑ r : Fin 64, (∑ i : Fin 4096, xr i * A r i) * Bo r)
          + c2 * ∑ r : Fin 32,
              (∑ q : Fin 64, (∑ t : Fin 32, (∑ i : Fin 4096, xr i * A1 t i) * A2 q t) * B1 r q) * B2o r) : ℝ)
          : EReal) := by
  simp only [refEntry, coe_sum, EReal.coe_add, EReal.coe_mul]

/-- When every number involved is a real, the folded and the unfolded entry are the same extended real. -/
theorem kerEntry_eq_refEntry (c4 c2 : ℝ) (xr Wo : Fin 4096 → ℝ) (bo : ℝ)
    (A : Fin 64 → Fin 4096 → ℝ) (Bo : Fin 64 → ℝ) (A1 : Fin 32 → Fin 4096 → ℝ)
    (A2 : Fin 64 → Fin 32 → ℝ) (B1 : Fin 32 → Fin 64 → ℝ) (B2o : Fin 32 → ℝ) :
    kerEntry (c4 : EReal) (c2 : EReal) (fun i => (xr i : EReal)) (fun i => (Wo i : EReal)) (bo : EReal)
        (fun r i => (A r i : EReal)) (fun r => (Bo r : EReal)) (fun t i => (A1 t i : EReal))
        (fun q t => (A2 q t : EReal)) (fun r q => (B1 r q : EReal)) (fun r => (B2o r : EReal))
      = refEntry (c4 : EReal) (c2 : EReal) (fun i => (xr i : EReal)) (fun i => (Wo i : EReal)) (bo : EReal)
        (fun r i => (A r i : EReal)) (fun r => (Bo r : EReal)) (fun t i => (A1 t i : EReal))
        (fun q t => (A2 q t : EReal)) (fun r q => (B1 r q : EReal)) (fun r => (B2o r : EReal)) := by
  rw [kerEntry_coe, refEntry_coe, real_identity]

end Cert.Lora

end
-- ==== Proof.KernelBlock.lean ====
/-
  One output block of the kernel, entry by entry.

  The grid has 8 × 4 × 4 points, numbered t = 16·a + 4·b + k: the output block is (a, b) and k runs over the four
  runs of the contracted axis. At point t the body sees rows 1024·a … of the activations against columns 1024·k …,
  rows 1024·k … of the weight against columns 1024·b …, and columns 1024·b … of the bias row. Over the four points of
  one block the scratch goes 0 + P₀, then + P₁, + P₂, + P₃, where Pₖ(p, q) = Σ_κ x(1024a + p, 1024k + κ) · w(1024k + κ, 1024b + q),
  and the last point writes that sum plus the bias to the output block.
-/
import proofs.«160152_j10479720202377_1_alg».proof.Proof.KernelPieces
import proofs.«160152_j10479720202377_1_alg».proof.Proof.LibPlainDot
import proofs.«160152_j10479720202377_1_alg».proof.Proof.LoraAlgebra
import Idealize.ShloMosaic.Lib.Pipeline.Value
import Idealize.ShloMosaic.Lib.ValueIdx
import Idealize.ShloMosaic.PureOps.Ideal.Laws

set_option maxRecDepth 16384

noncomputable section

open scoped BigOperators

namespace Cert.Lora.Block

open Idealize.ShloMosaic Idealize.ShloMosaic.TcCoe Idealize.ShloMosaic.ValueIdx Idealize.SL.Sem
open Cert.KernelIdeal Cert.KernelIdeal.Gen

/-! ## The body's three stored values at an entry -/

/-- The block product contracts the left block's columns with the right block's rows. -/
theorem plain1024 : PlainDot.IsPlain dot_S1024x1024_S1024x1024_S1024x1024_1_0_0_1_n_n := ⟨rfl, rfl, rfl, rfl, rfl, rfl⟩

/-- The cleared scratch holds the zero pattern everywhere. -/
theorem cleared_apply (p q : Fin 1024) : (k0_pay1 (F := Ideal)) (ix2 p q) = Ideal.ofBits .f32 0x00000000#32 := by
  unfold k0_pay1
  simp only [shapeCast_self]
  rfl

/-- The accumulating store: the old sum plus the product of the two blocks, entry by entry. -/
theorem accum_apply (acc : Vec Ideal S1024x1024 .f32) (xb wb : Vec Ideal S1024x1024 .bf16) (p q : Fin 1024) :
    k0_pay2 acc xb wb (ix2 p q) = acc (ix2 p q) + ∑ κ : Fin 1024, xb (ix2 p κ) * wb (ix2 κ q) := by
  unfold k0_pay2
  simp only [shapeCast_self]
  rw [addf_apply]
  exact congrArg (acc (ix2 p q) + ·) (PlainDot.matmul_zero_plain _ plain1024 none xb wb p q)

/-- The closing store: the sum plus the bias row, the same on every row. -/
theorem biased_apply (acc : Vec Ideal S1024x1024 .f32) (bb : Vec Ideal S1x1024 .f32) (p q : Fin 1024) :
    k0_pay3 acc bb (ix2 p q) = acc (ix2 p q) + bb (ix2 (0 : Fin 1) q) := by
  unfold k0_pay3
  simp only [shapeCast_self]
  rw [addf_apply]
  refine congrArg (acc (ix2 p q) + ·) ?_
  refine broadcastTo_apply bb _ (ix2 p q) (ix2 (0 : Fin 1) q) ?_
  intro a
  match a with
  | ⟨0, _⟩ => show (0 : Nat) = if (1 : Nat) = 1 then 0 else p.val; rw [if_pos rfl]
  | ⟨1, _⟩ => show q.val = if (1024 : Nat) = 1 then 0 else q.val; rw [if_neg (by decide)]

/-! ## Which block each window shows at point t -/

theorem acts_index : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
theorem weight_index : ∀ t : Fin cfg0.N, win0_1.index t (0 : Fin 2) = t.val % 4 ∧ win0_1.index t (1 : Fin 2) = t.val / 4 % 4 :=
  (by decide +kernel : ∀ t : Fin grid0.N, win0_1.index t (0 : Fin 2) = t.val % 4 ∧ win0_1.index t (1 : Fin 2) = t.val / 4 % 4)
theorem bias_index : ∀ t : Fin cfg0.N, win0_2.index t (0 : Fin 2) = 0 ∧ win0_2.index t (1 : Fin 2) = t.val / 4 % 4 :=
  (by decide +kernel : ∀ t : Fin grid0.N, win0_2.index t (0 : Fin 2) = 0 ∧ win0_2.index t (1 : Fin 2) = t.val / 4 % 4)
theorem out_index : ∀ t : Fin cfg0.N, win0_3.index t (0 : Fin 2) = t.val / 16 ∧ win0_3.index t (1 : Fin 2) = t.val / 4 % 4 :=
  (by decide +kernel : ∀ t : Fin grid0.N, win0_3.index t (0 : Fin 2) = t.val / 16 ∧ win0_3.index t (1 : Fin 2) = t.val / 4 % 4)

theorem point_lt (t : Fin cfg0.N) : t.val < 128 := lt_of_lt_of_eq t.isLt N_0

variable (m : (ℓ : Loc nD τ sig) → Buf (Elt Ideal) ℓ)

/-! ## The three input blocks, read off the arrays the region finds -/

/-- The three arrays as the region finds them, under their literal types. -/
abbrev acts (c : Dev nD) : S8192x4096.Idx → EReal := V m c main_v13
abbrev weight (c : Dev nD) : S4096x4096.Idx → EReal := V m c main_v11
abbrev biasRow (c : Dev nD) : S1x4096.Idx → EReal := V m c main_v14

theorem acts_block (c : Dev nD) (t : Fin cfg0.N) (p κ : Fin 1024) :
    (iblk m c 0 t : Vec Ideal S1024x1024 .bf16) (ix2 p κ)
      = acts m c (ix2 (⟨1024 * (t.val / 16) + p.val, by have := point_lt t; omega⟩ : Fin 8192)
          (⟨1024 * (t.val % 4) + κ.val, by omega⟩ : Fin 4096)) := by
  unfold iblk
  rw [View.read_apply]
  show V m c main_v13 _ = V m c main_v13 _
  congr 1
  funext a
  apply Fin.ext
  match a with
  | ⟨0, _⟩ => show win0_0.index t (0 : Fin 2) * 1024 + 1 * p.val = 1024 * (t.val / 16) + p.val; rw [(acts_index t).1]; omega
  | ⟨1, _⟩ => show win0_0.index t (1 : Fin 2) * 1024 + 1 * κ.val = 1024 * (t.val % 4) + κ.val; rw [(acts_index t).2]; omega

theorem weight_block (c : Dev nD) (t : Fin cfg0.N) (κ q : Fin 1024) :
    (iblk m c 1 t : Vec Ideal S1024x1024 .bf16) (ix2 κ q)
      = weight m c (ix2 (⟨1024 * (t.val % 4) + κ.val, by omega⟩ : Fin 4096)
          (⟨1024 * (t.val / 4 % 4) + q.val, by omega⟩ : Fin 4096)) := by
  unfold iblk
  rw [View.read_apply]
  show V m c main_v11 _ = V m c main_v11 _
  congr 1
  funext a
  apply Fin.ext
  match a with
  | ⟨0, _⟩ => show win0_1.index t (0 : Fin 2) * 1024 + 1 * κ.val = 1024 * (t.val % 4) + κ.val; rw [(weight_index t).1]; omega
  | ⟨1, _⟩ => show win0_1.index t (1 : Fin 2) * 1024 + 1 * q.val = 1024 * (t.val / 4 % 4) + q.val; rw [(weight_index t).2]; omega

theorem bias_block (c : Dev nD) (t : Fin cfg0.N) (q : Fin 1024) :
    (iblk m c 2 t : Vec Ideal S1x1024 .f32) (ix2 (0 : Fin 1) q)
      = biasRow m c (ix2 (0 : Fin 1) (⟨1024 * (t.val / 4 % 4) + q.val, by omega⟩ : Fin 4096)) := by
  unfold iblk
  rw [View.read_apply]
  show V m c main_v14 _ = V m c main_v14 _
  congr 1
  funext a
  apply Fin.ext
  match a with
  | ⟨0, _⟩ => show win0_2.index t (0 : Fin 2) * 1 + 1 * 0 = 0; rw [(bias_index t).1]
  | ⟨1, _⟩ => show win0_2.index t (1 : Fin 2) * 1024 + 1 * q.val = 1024 * (t.val / 4 % 4) + q.val; rw [(bias_index t).2]; omega

/-! ## The running sum over the four points of one output block -/

/-- The three input blocks of point `t`, under their literal types. -/
abbrev actsBlk (c : Dev nD) (t : Fin cfg0.N) : S1024x1024.Idx → EReal := iblk m c 0 t
abbrev weightBlk (c : Dev nD) (t : Fin cfg0.N) : S1024x1024.Idx → EReal := iblk m c 1 t
abbrev biasBlk (c : Dev nD) (t : Fin cfg0.N) : S1x1024.Idx → EReal := iblk m c 2 t

/-- The product of the two input blocks of point `t`, at entry (p, q). -/
def prod (c : Dev nD) (t : Fin cfg0.N) (p q : Fin 1024) : EReal :=
  ∑ κ : Fin 1024, actsBlk m c t (ix2 p κ) * weightBlk m c t (ix2 κ q)

/-- At the first point of a run the scratch ends at the zero pattern plus that point's product. -/
theorem sum_first (c : Dev nD) (t : Fin cfg0.N) (h0 : t.val % 4 = 0) (p q : Fin 1024) :
    (outsAt0 m c t.val t.isLt).2 (ix2 p q) = Ideal.ofBits .f32 0x00000000#32 + prod m c t p q := by
  have h1 : ¬ t.val % 4 = 3 := by omega
  rw [outsAt0_A m c t h0 h1]
  dsimp only
  refine (congrFun (Pieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 p q)).trans ?_
  rw [accum_apply, cleared_apply]
  rfl

/-- At every later point of a run the scratch ends at what the point before left plus this point's product. -/
theorem sum_next (c : Dev nD) (t : Fin cfg0.N) (h0 : ¬ t.val % 4 = 0) (p q : Fin 1024) :
    (outsAt0 m c t.val t.isLt).2 (ix2 p q)
      = (outsAt0 m c (t.val - 1) (Nat.lt_of_le_of_lt (Nat.sub_le _ _) t.isLt)).2 (ix2 p q) + prod m c t p q := by
  by_cases h1 : t.val % 4 = 3
  · rw [outsAt0_C m c t h0 h1]
    dsimp only
    refine (congrFun (Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).trans ?_
    rw [accum_apply]
    rfl
  · rw [outsAt0_B m c t h0 h1]
    dsimp only
    refine (congrFun (Pieces.scratch_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 p q)).trans ?_
    rw [accum_apply]
    rfl

/-- At the last point of a run the output block gets the finished sum plus the bias row. -/
theorem out_last (c : Dev nD) (t : Fin cfg0.N) (h3 : t.val % 4 = 3) (p q : Fin 1024) :
    (outsAt0 m c t.val t.isLt).1 (ix2 p q)
      = ((outsAt0 m c (t.val - 1) (Nat.lt_of_le_of_lt (Nat.sub_le _ _) t.isLt)).2 (ix2 p q) + prod m c t p q)
          + biasBlk m c t (ix2 (0 : Fin 1) q) := by
  have h0 : ¬ t.val % 4 = 0 := by omega
  rw [outsAt0_C m c t h0 h3]
  dsimp only
  refine (congrFun (Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2) (ix2 p q)).trans ?_
  rw [biased_apply, accum_apply]
  rfl

/-! ## The whole block entry -/

/-- The three points before a run's last point. -/
abbrev back1 (t : Fin cfg0.N) : Fin cfg0.N := ⟨t.val - 1, Nat.lt_of_le_of_lt (Nat.sub_le _ _) t.isLt⟩
abbrev back2 (t : Fin cfg0.N) : Fin cfg0.N := back1 (back1 t)
abbrev back3 (t : Fin cfg0.N) : Fin cfg0.N := back1 (back2 t)

/-- At the last point of a run the output block holds the four products added up from the zero pattern, plus the
    bias row. -/
theorem block_entry (c : Dev nD) (t : Fin cfg0.N) (h3 : t.val % 4 = 3) (p q : Fin 1024) :
    (outsAt0 m c t.val t.isLt).1 (ix2 p q)
      = ((((Ideal.ofBits .f32 0x00000000#32 + prod m c (back3 t) p q) + prod m c (back2 t) p q) + prod m c (back1 t) p q)
          + prod m c t p q) + biasBlk m c t (ix2 (0 : Fin 1) q) := by
  have e3 := out_last m c t h3 p q
  have e2 := sum_next m c (back1 t) (by show ¬ (t.val - 1) % 4 = 0; omega) p q
  have e1 := sum_next m c (back2 t) (by show ¬ (t.val - 1 - 1) % 4 = 0; omega) p q
  have e0 := sum_first m c (back3 t) (by show (t.val - 1 - 1 - 1) % 4 = 0; omega) p q
  rw [e3]
  refine congrArg (· + biasBlk m c t (ix2 (0 : Fin 1) q)) ?_
  refine congrArg (· + prod m c t p q) ?_
  refine e2.trans ?_
  refine congrArg (· + prod m c (back1 t) p q) ?_
  refine e1.trans ?_
  exact congrArg (· + prod m c (back2 t) p q) e0

/-- Entry (row, o) of the array the kernel writes: the row of the activations against column `o` of the weight, the
    contracted axis in four runs of 1024 added up from zero, plus the bias. -/
def outEntry (c : Dev nD) (row : Fin 8192) (o : Fin 4096) : EReal :=
  (0 + ∑ k : Fin 4, ∑ κ : Fin 1024, acts m c (ix2 row (Cert.Lora.pos k κ)) * weight m c (ix2 (Cert.Lora.pos k κ) o))
    + biasRow m c (ix2 (0 : Fin 1) o)

/-- The product of point `u`'s blocks is run `k` of the contraction, when `u` shows row block `a`, column block `b`
    and run `k`. -/
theorem prod_run (c : Dev nD) (u : Fin cfg0.N) (a b : Nat) (k : Fin 4) (ha : u.val / 16 = a) (hb : u.val / 4 % 4 = b)
    (hk : u.val % 4 = k.val) (p q : Fin 1024) (row : Fin 8192) (o : Fin 4096)
    (hrow : row.val = 1024 * a + p.val) (ho : o.val = 1024 * b + q.val) :
    prod m c u p q = ∑ κ : Fin 1024, acts m c (ix2 row (Cert.Lora.pos k κ)) * weight m c (ix2 (Cert.Lora.pos k κ) o) := by
  unfold prod
  refine Finset.sum_congr rfl fun κ _ => ?_
  rw [show actsBlk m c u (ix2 p κ) = _ from acts_block m c u p κ, show weightBlk m c u (ix2 κ q) = _ from weight_block m c u κ q]
  have ea : (⟨1024 * (u.val / 16) + p.val, by have := point_lt u; omega⟩ : Fin 8192) = row := Fin.ext (by show 1024 * (u.val / 16) + p.val = row.val; omega)
  have ek : (⟨1024 * (u.val % 4) + κ.val, by omega⟩ : Fin 4096) = Cert.Lora.pos k κ := Fin.ext (by show 1024 * (u.val % 4) + κ.val = 1024 * k.val + κ.val; omega)
  have eb : (⟨1024 * (u.val / 4 % 4) + q.val, by omega⟩ : Fin 4096) = o := Fin.ext (by show 1024 * (u.val / 4 % 4) + q.val = o.val; omega)
  rw [ea, ek, eb]

/-- What the last point of a run writes to its output block is `outEntry` at the block's place in the array. -/
theorem flushed_entry (c : Dev nD) (t : Fin cfg0.N) (h3 : t.val % 4 = 3) (p q : Fin 1024) (row : Fin 8192) (o : Fin 4096)
    (hrow : row.val = 1024 * (t.val / 16) + p.val) (ho : o.val = 1024 * (t.val / 4 % 4) + q.val) :
    (outsAt0 m c t.val t.isLt).1 (ix2 p q) = outEntry m c row o := by
  have hN := point_lt t
  rw [block_entry m c t h3 p q, Ideal.ofBits_zero_f32]
  unfold outEntry
  rw [Fin.sum_univ_four]
  rw [prod_run m c (back3 t) (t.val / 16) (t.val / 4 % 4) 0 (by show (t.val - 1 - 1 - 1) / 16 = _; omega) (by show (t.val - 1 - 1 - 1) / 4 % 4 = _; omega) (by show (t.val - 1 - 1 - 1) % 4 = 0; omega) p q row o hrow ho,
    prod_run m c (back2 t) (t.val / 16) (t.val / 4 % 4) 1 (by show (t.val - 1 - 1) / 16 = _; omega) (by show (t.val - 1 - 1) / 4 % 4 = _; omega) (by show (t.val - 1 - 1) % 4 = 1; omega) p q row o hrow ho,
    prod_run m c (back1 t) (t.val / 16) (t.val / 4 % 4) 2 (by show (t.val - 1) / 16 = _; omega) (by show (t.val - 1) / 4 % 4 = _; omega) (by show (t.val - 1) % 4 = 2; omega) p q row o hrow ho,
    prod_run m c t (t.val / 16) (t.val / 4 % 4) 3 rfl rfl (by show t.val % 4 = 3; exact h3) p q row o hrow ho]
  have eb : biasBlk m c t (ix2 (0 : Fin 1) q) = biasRow m c (ix2 (0 : Fin 1) o) := by
    refine (show biasBlk m c t (ix2 (0 : Fin 1) q) = _ from bias_block m c t q).trans ?_
    exact congrArg (fun z => biasRow m c (ix2 (0 : Fin 1) z)) (Fin.ext (by show 1024 * (t.val / 4 % 4) + q.val = o.val; omega))
  rw [eb]
  simp only [zero_add, add_assoc]

end Cert.Lora.Block

end
-- ==== Proof.KernelValue.lean ====
/-
  The array the kernel writes, and the program's result.

  The last point of each run of four writes its finished block back; the 32 output blocks tile the
  [8192, 4096] array, so after the run the array is, entry by entry, the activation row against the weight column,
  the contraction in four runs of 1024 added up from zero, plus the bias. The program then lays that array out as
  [4, 2048, 4096]: row 2048·p + s becomes (p, s).
-/
import proofs.«160152_j10479720202377_1_alg».proof.Proof.KernelBlock
import Idealize.ShloMosaic.Lib.Pipeline.Value
import Idealize.ShloMosaic.Lib.ValueIdx
import Idealize.ShloMosaic.Lib.StableHlo.Run

set_option maxRecDepth 16384

noncomputable section

open scoped BigOperators

namespace Cert.Lora.KernelValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The array the kernel writes, as one function of its index. -/
def outArr (c : Dev nD) : S8192x4096.Idx → EReal := fun i =>
  Block.outEntry m c ⟨(i 0).val, idx2_lt0 i⟩ ⟨(i 1).val, idx2_lt1 i⟩

/-- What a run's last point writes back is its block of that function. -/
theorem flushed_eq (c : Dev nD) (t : Fin cfg0.N) (hf : (cfg0.win 3).flush t = true) :
    (dats m 0 c).flushed 3 t = ((cfg0.win 3).blk t).view.read (Elt Ideal) (outArr m c) := by
  -- A point that writes back is the last of its run of four. Entry (p, q) of its block sits in the array at row
  -- 1024·(t/16) + p and column 1024·(t/4 mod 4) + q, where the block entry is the array's entry.
  have h3 := (flush0_3 t).mp hf
  show (cfg0.win 3).cut (grid0.coords t) ((dats m 0 c).after 3 t) = _
  rw [after0_3]
  funext j
  have hj0 : (j 0).val < 1024 := (j 0).isLt
  have hj1 : (j 1).val < 1024 := (j 1).isLt
  show (outsAt0 m c t.val t.isLt).1 j = outArr m c (((cfg0.win 3).blk t).view.emb j)
  have ej : (j : S1024x1024.Idx) = ix2 (⟨(j 0).val, hj0⟩ : Fin 1024) (⟨(j 1).val, hj1⟩ : Fin 1024) :=
    funext fun a => by match a with | ⟨0, _⟩ => rfl | ⟨1, _⟩ => rfl
  refine (congrArg (outsAt0 m c t.val t.isLt).1 ej).trans ?_
  unfold outArr
  refine Block.flushed_entry m c t h3 ⟨(j 0).val, hj0⟩ ⟨(j 1).val, hj1⟩ _ _ ?_ ?_
  · show win0_3.index t (0 : Fin 2) * 1024 + 1 * (j 0).val = 1024 * (t.val / 16) + (j 0).val
    rw [(Block.out_index t).1]; omega
  · show win0_3.index t (1 : Fin 2) * 1024 + 1 * (j 1).val = 1024 * (t.val / 4 % 4) + (j 1).val
    rw [(Block.out_index t).2]; omega

/-- Every entry of the array lies in the block some run's last point writes back. -/
theorem cover (i : S8192x4096.Idx) :
    ∃ t : Fin cfg0.N, (cfg0.win 3).flush t = true ∧ i ∈ ((cfg0.win 3).blk t).view.set := by
  -- Entry (r, o) lies in row band r/1024 and column band o/1024; the last point of that block's run of four is
  -- 16·(r/1024) + 4·(o/1024) + 3, and its block spans rows 1024·(r/1024) … and columns 1024·(o/1024) … .
  have h0 : (i 0).val < 8192 := (i 0).isLt
  have h1 : (i 1).val < 4096 := (i 1).isLt
  have hN : 16 * ((i 0).val / 1024) + 4 * ((i 1).val / 1024) + 3 < cfg0.N := by
    rw [show cfg0.N = 128 from N_0]; omega
  refine ⟨⟨16 * ((i 0).val / 1024) + 4 * ((i 1).val / 1024) + 3, hN⟩, ?_, ?_⟩
  · exact (flush0_3 _).mpr (by show (16 * ((i 0).val / 1024) + 4 * ((i 1).val / 1024) + 3) % 4 = 3; omega)
  · generalize ht : (⟨16 * ((i 0).val / 1024) + 4 * ((i 1).val / 1024) + 3, hN⟩ : Fin cfg0.N) = t
    have hv : t.val = 16 * ((i 0).val / 1024) + 4 * ((i 1).val / 1024) + 3 := by rw [← ht]
    show i ∈ ((View.whole main_v15).slice (win0_3.rect t)).set
    rw [View.set_slice_whole, Rect.mem_set_unit]
    intro a
    match a with
    | ⟨0, _⟩ =>
      show win0_3.index t (0 : Fin 2) * 1024 ≤ (i 0).val ∧ (i 0).val < win0_3.index t (0 : Fin 2) * 1024 + 1024
      rw [(Block.out_index t).1]; omega
    | ⟨1, _⟩ =>
      show win0_3.index t (1 : Fin 2) * 1024 ≤ (i 1).val ∧ (i 1).val < win0_3.index t (1 : Fin 2) * 1024 + 1024
      rw [(Block.out_index t).2]; omega

/-- The array after the region. -/
theorem final (c : Dev nD) : (dats m 0 c).arrAt 3 cfg0.N = outArr m c :=
  (dats m 0 c).arrAt_eq_of_cover 3 (outArr m c) (flushed_eq m c) cover

/-- The program's result: the written array laid out as [4, 2048, 4096]. -/
def result (c : Dev nD) : S4x2048x4096.Idx → EReal := fun i =>
  Block.outEntry m c
    ⟨2048 * (i 0).val + (i 1).val, by have h0 : (i 0).val < 4 := (i 0).isLt; have h1 : (i 1).val < 2048 := (i 1).isLt; omega⟩
    ⟨(i 2).val, (i 2).isLt⟩

/-- After the region the program lays the written array out as [4, 2048, 4096]: entry (p, s, o) is entry
    (2048·p + s, o) of the array, the two having the same place in row-major order. -/
theorem tail_result (c : Dev nD) :
    Pipeline.afterTail₀ cfgs (dats m) 0 (V0 m) [hostOps1] c main_v16 = result m c := by
  unfold Pipeline.afterTail₀
  show StableHlo.after hostOps1 _ (Proc.devRef .tc main_v16) = _
  after_results
  have hw : Pipeline.withArrays (cfgs 0).spec c (V0 m c) (fun w => (dats m 0 c).arrAt w (cfgs 0).N) (Proc.tc.devRef main_v15)
      = outArr m c :=
    (Pipeline.withArrays_arr spec0 launch0.win.arr_inj c _ _ 3).trans (final m c)
  funext i
  show shapeCast S4x2048x4096 (Pipeline.withArrays (cfgs 0).spec c (V0 m c) (fun w => (dats m 0 c).arrAt w (cfgs 0).N) (Proc.tc.devRef main_v15)) shapeCasts_S8192x4096_S4x2048x4096 i = _
  rw [hw]
  have h0 : (i 0).val < 4 := (i 0).isLt
  have h1 : (i 1).val < 2048 := (i 1).isLt
  have h2 : (i 2).val < 4096 := (i 2).isLt
  refine (shapeCast_apply (outArr m c) shapeCasts_S8192x4096_S4x2048x4096 i
    (ix2 (⟨2048 * (i 0).val + (i 1).val, by omega⟩ : Fin 8192) (⟨(i 2).val, h2⟩ : Fin 4096)) ?_).trans ?_
  · rw [Shape.rowMajor_val_three, Shape.rowMajor_val_two]
    show (2048 * (i 0).val + (i 1).val) * 4096 + (i 2).val = ((i 0).val * 2048 + (i 1).val) * 4096 + (i 2).val
    omega
  · rfl

/-- Every weakly fair execution of the program ends with the result array at `result` and the arguments unchanged. -/
theorem run : θ_run defs (onTc (τ := τ) (main (F := Ideal))) ⟨m, fun _ => 0, ρ⟩ fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨((h c).2 main_v16 (Pipeline.mem_restRefs_of main_v16 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.Lora.KernelValue

end
-- ==== Proof.HostPrefix.lean ====
/-
  The three arrays the kernel region finds, read at an index.

  Before the region the program folds the two low-rank updates into the dense weight, transposes the result, and
  lays the activations out as a matrix of 8192 rows and the bias as a single row. So the region finds:
  the activations with row 2048·p + s the row (p, s) of the input; the weight whose entry (i, o) is entry (o, i)
  of the folded weight of Proof/LoraAlgebra.lean; and the bias row. (Changes of float format are the identity on
  the extended reals.)
-/
import proofs.«160152_j10479720202377_1_alg».proof.Proof.Gen.KernelIdeal.Frame
import proofs.«160152_j10479720202377_1_alg».proof.Proof.LoraAlgebra
import proofs.«160152_j10479720202377_1_alg».proof.Proof.LibPlainDot
import Idealize.ShloMosaic.Lib.Pipeline.Value
import Idealize.ShloMosaic.Lib.ValueIdx
import Idealize.ShloMosaic.Lib.StableHlo.Run

noncomputable section

open scoped BigOperators

namespace Cert.Lora.HostPrefix

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ)

/-! ## Each array as a term of the launch contents -/

/-- The activation matrix is the input with its two leading axes merged into one, then a change of float format. -/
theorem acts_term (c : Dev nD) :
    (V m c main_v13 : S8192x4096.Idx → EReal)
      = truncf (F := Ideal) .bf16
          (shapeCast S8192x4096 (m ((c : Thread nD τ).loc main_arg0) : S4x2048x4096.Idx → EReal)
            shapeCasts_S4x2048x4096_S8192x4096)
          bitsLt_bf16_f32 := by
  show StableHlo.after hostOps0 (fun b => m (c, b)) (Proc.devRef .tc main_v13) = _
  after_results
  rfl

/-- The bias row is the bias vector given a leading axis of length one. -/
theorem bias_term (c : Dev nD) :
    (V m c main_v14 : S1x4096.Idx → EReal)
      = shapeCast S1x4096 (m ((c : Thread nD τ).loc main_arg2) : S4096.Idx → EReal) shapeCasts_S4096_S1x4096 := by
  show StableHlo.after hostOps0 (fun b => m (c, b)) (Proc.devRef .tc main_v14) = _
  after_results
  rfl

/-- The weight is the transpose of W + 4 · (B · A) + 2 · (B₂ · (B₁ · (A₂ · A₁))), the two scalars spread over the
    whole matrix, then a change of float format. -/
theorem weight_term (c : Dev nD) :
    (V m c main_v11 : S4096x4096.Idx → EReal)
      = truncf (F := Ideal) .bf16
          (transpose S4096x4096 [1, 0]
            (addf (F := Ideal)
              (addf (F := Ideal) (m ((c : Thread nD τ).loc main_arg1) : FVec Ideal S4096x4096 .f32)
                (mulf (F := Ideal)
                  (broadcastInDim S4096x4096 ![] bcast_S_S4096x4096 (constant (F := Ideal) S_ .f32 0x40800000#32))
                  (Host.dotGeneral (F := Ideal) (φ₁ := .f32) (φ₂ := .f32) dot_S4096x64_S64x4096_S4096x4096_1_0_0_1_n_n none
                    (m ((c : Thread nD τ).loc main_arg4) : FVec Ideal S4096x64 .f32)
                    (m ((c : Thread nD τ).loc main_arg3) : FVec Ideal S64x4096 .f32))))
              (mulf (F := Ideal)
                (broadcastInDim S4096x4096 ![] bcast_S_S4096x4096 (constant (F := Ideal) S_ .f32 0x40000000#32))
                (Host.dotGeneral (F := Ideal) (φ₁ := .f32) (φ₂ := .f32) dot_S4096x32_S32x4096_S4096x4096_1_0_0_1_n_n none
                  (m ((c : Thread nD τ).loc main_arg8) : FVec Ideal S4096x32 .f32)
                  (Host.dotGeneral (F := Ideal) (φ₁ := .f32) (φ₂ := .f32) dot_S32x64_S64x4096_S32x4096_1_0_0_1_n_n none
                    (m ((c : Thread nD τ).loc main_arg7) : FVec Ideal S32x64 .f32)
                    (Host.dotGeneral (F := Ideal) (φ₁ := .f32) (φ₂ := .f32) dot_S64x32_S32x4096_S64x4096_1_0_0_1_n_n none
                      (m ((c : Thread nD τ).loc main_arg6) : FVec Ideal S64x32 .f32)
                      (m ((c : Thread nD τ).loc main_arg5) : FVec Ideal S32x4096 .f32))))))
            transposes_S4096x4096_S4096x4096_1_0)
          bitsLt_bf16_f32 := by
  show StableHlo.after hostOps0 (fun b => m (c, b)) (Proc.devRef .tc main_v11) = _
  after_results

/-! ## A plain host product at an index -/

open Idealize.ShloMosaic.PlainDot in
/-- The host's product of an M×K by a K×N matrix, entry (p, q): the sum over κ of l (p, κ) · r (κ, q). -/
theorem hostDot_apply {M K N : Nat} {φ₁ φ₂ : FTy} (d : DotDims ⟨2, ![M, K]⟩ ⟨2, ![K, N]⟩ ⟨2, ![M, N]⟩) (hd : IsPlain d)
    (l : FVec Ideal ⟨2, ![M, K]⟩ φ₁) (r : FVec Ideal ⟨2, ![K, N]⟩ φ₂) (p : Fin M) (q : Fin N) :
    Host.dotGeneral (F := Ideal) d none l r (ix2 p q) = ∑ κ : Fin K, l (ix2 p κ) * r (ix2 κ q) :=
  dotGeneral_plain d hd none .single l r p q

/-! ## The three arrays at an index -/

/-- Row `2048·p + s` of the activation matrix the region finds is row (p, s) of the input. -/
theorem acts_apply (c : Dev nD) (p : Fin 4) (s : Fin 2048) (i : Fin 4096) :
    (V m c main_v13 : S8192x4096.Idx → EReal) (ix2 (⟨2048 * p.val + s.val, by omega⟩ : Fin 8192) i)
      = (m ((c : Thread nD τ).loc main_arg0) : S4x2048x4096.Idx → EReal) (ix3 p s i) := by
  rw [acts_term, truncf_apply]
  -- merging the two leading axes keeps the row-major position: (p · 2048 + s) · 4096 + i on both sides
  refine shapeCast_apply _ shapeCasts_S4x2048x4096_S8192x4096
    (ix2 (⟨2048 * p.val + s.val, by omega⟩ : Fin 8192) i) (ix3 p s i) ?_
  rw [Shape.rowMajor_val_three, Shape.rowMajor_val_two]
  show (p.val * 2048 + s.val) * 4096 + i.val = (2048 * p.val + s.val) * 4096 + i.val
  omega

/-- Entry (i, o) of the weight the region finds is entry (o, i) of the folded weight. -/
theorem weight_apply (c : Dev nD) (i o : Fin 4096) :
    (V m c main_v11 : S4096x4096.Idx → EReal) (ix2 i o)
      = Cert.Lora.weffRow (Ideal.ofBits .f32 0x40800000#32) (Ideal.ofBits .f32 0x40000000#32)
          (fun i => (m ((c : Thread nD τ).loc main_arg1) : S4096x4096.Idx → EReal) (ix2 o i))
          (fun r i => (m ((c : Thread nD τ).loc main_arg3) : S64x4096.Idx → EReal) (ix2 r i))
          (fun r => (m ((c : Thread nD τ).loc main_arg4) : S4096x64.Idx → EReal) (ix2 o r))
          (fun t i => (m ((c : Thread nD τ).loc main_arg5) : S32x4096.Idx → EReal) (ix2 t i))
          (fun q t => (m ((c : Thread nD τ).loc main_arg6) : S64x32.Idx → EReal) (ix2 q t))
          (fun r q => (m ((c : Thread nD τ).loc main_arg7) : S32x64.Idx → EReal) (ix2 r q))
          (fun r => (m ((c : Thread nD τ).loc main_arg8) : S4096x32.Idx → EReal) (ix2 o r)) i := by
  rw [weight_term, truncf_apply]
  -- the transpose read at (i, o) is its operand at (o, i)
  rw [transpose_apply [1, 0] _ transposes_S4096x4096_S4096x4096_1_0 (ix2 i o) (ix2 o i)
        (fun b => match b with | ⟨0, _⟩ => rfl | ⟨1, _⟩ => rfl)]
  -- sums and products are entrywise; a scalar spread over the matrix is that scalar at every entry
  rw [addf_apply, addf_apply, mulf_apply, mulf_apply]
  rw [broadcastInDim_apply ![] bcast_S_S4096x4096 _ (ix2 o i) ix0 (fun a => a.elim0),
      broadcastInDim_apply ![] bcast_S_S4096x4096 _ (ix2 o i) ix0 (fun a => a.elim0)]
  rw [constant_apply, constant_apply]
  -- the two outer products at (o, i)
  rw [hostDot_apply _ ⟨rfl, rfl, rfl, rfl, rfl, rfl⟩, hostDot_apply _ ⟨rfl, rfl, rfl, rfl, rfl, rfl⟩]
  unfold Cert.Lora.weffRow
  -- what is left differs only inside the second update: its two inner products, one under the other's sum
  refine congrArg (fun x : EReal => (_ : EReal) + (_ : EReal) * x)
    (Finset.sum_congr rfl fun r _ => congrArg (fun x : EReal => (_ : EReal) * x) ?_)
  rw [hostDot_apply _ ⟨rfl, rfl, rfl, rfl, rfl, rfl⟩]
  refine Finset.sum_congr rfl fun q _ => congrArg (fun x : EReal => (_ : EReal) * x) ?_
  exact hostDot_apply _ ⟨rfl, rfl, rfl, rfl, rfl, rfl⟩ _ _ q i

/-- The bias row the region finds is the bias. -/
theorem bias_apply (c : Dev nD) (o : Fin 4096) :
    (V m c main_v14 : S1x4096.Idx → EReal) (ix2 (0 : Fin 1) o)
      = (m ((c : Thread nD τ).loc main_arg2) : S4096.Idx → EReal) (ix1 o) := by
  rw [bias_term]
  -- a leading axis of length one does not move the row-major position
  refine shapeCast_apply _ shapeCasts_S4096_S1x4096 (ix2 (0 : Fin 1) o) (ix1 o) ?_
  rw [Shape.rowMajor_val_one, Shape.rowMajor_val_two]
  show o.val = 0 * 4096 + o.val
  omega

end Cert.Lora.HostPrefix

end
-- ==== Proof.RefValue.lean ====
/-
  The reference's result, read at an index.

  The reference applies the dense layer and the two low-rank chains to the activations; at output position
  (p, s, o) its result is the unfolded entry of Proof/LoraAlgebra.lean, over row (p, s) of the activations and row
  `o` of the dense weight and of the two up-projections.
-/
import proofs.«160152_j10479720202377_1_alg».proof.Proof.Gen.ReferenceIdeal.Read
import proofs.«160152_j10479720202377_1_alg».proof.Proof.LoraAlgebra

noncomputable section

open scoped BigOperators

namespace Cert.Lora.RefValue

open Idealize.ShloMosaic Idealize.ShloMosaic.ValueIdx Cert.ReferenceIdeal

/-! ## Where each product reads its operands

Every product of the reference contracts the last axis of its left operand with the last axis of its right operand.
So the entry (p, s, c) of a product reads the left operand along row (p, s), at (p, s, k), and the right operand along
row c, at (c, k), for k over the contracted axis. The bias is read at the output column. Each equation below says
this for one product, coordinate by coordinate. -/

section Indices

variable (p : Fin 4) (s : Fin 2048)

/-- Dense product, left operand: the activations at (p, s, k). -/
theorem lidx_v0 (o k : Fin 4096) : Read.lidx_main_v0 (ix3 p s o) k = ix3 p s k :=
  funext fun a => Fin.ext (by match a with | ⟨0, _⟩ => rfl | ⟨1, _⟩ => rfl | ⟨2, _⟩ => rfl)
/-- Dense product, right operand: the dense weight at (o, k). -/
theorem ridx_v0 (o k : Fin 4096) : Read.ridx_main_v0 (ix3 p s o) k = ix2 o k :=
  funext fun a => Fin.ext (by match a with | ⟨0, _⟩ => rfl | ⟨1, _⟩ => rfl)
/-- The bias, broadcast twice, is read at the output column. -/
theorem idx_v2_v1 (o : Fin 4096) : Read.idx_main_v1 (Read.idx_main_v2 (ix3 p s o)) = ix1 o :=
  funext fun a => Fin.ext (by match a with | ⟨0, _⟩ => rfl)

/-- First chain, down-projection, left operand: the activations at (p, s, i). -/
theorem lidx_v4 (r : Fin 64) (i : Fin 4096) : Read.lidx_main_v4 (ix3 p s r) i = ix3 p s i :=
  funext fun a => Fin.ext (by match a with | ⟨0, _⟩ => rfl | ⟨1, _⟩ => rfl | ⟨2, _⟩ => rfl)
/-- First chain, down-projection, right operand: the down-projection at (r, i). -/
theorem ridx_v4 (r : Fin 64) (i : Fin 4096) : Read.ridx_main_v4 (ix3 p s r) i = ix2 r i :=
  funext fun a => Fin.ext (by match a with | ⟨0, _⟩ => rfl | ⟨1, _⟩ => rfl)
/-- First chain, up-projection, left operand: the projected activations at (p, s, r). -/
theorem lidx_v5 (o : Fin 4096) (r : Fin 64) : Read.lidx_main_v5 (ix3 p s o) r = ix3 p s r :=
  funext fun a => Fin.ext (by match a with | ⟨0, _⟩ => rfl | ⟨1, _⟩ => rfl | ⟨2, _⟩ => rfl)
/-- First chain, up-projection, right operand: the up-projection at (o, r). -/
theorem ridx_v5 (o : Fin 4096) (r : Fin 64) : Read.ridx_main_v5 (ix3 p s o) r = ix2 o r :=
  funext fun a => Fin.ext (by match a with | ⟨0, _⟩ => rfl | ⟨1, _⟩ => rfl)

/-- Second chain, first factor, left operand: the activations at (p, s, i). -/
theorem lidx_v6 (t : Fin 32) (i : Fin 4096) : Read.lidx_main_v6 (ix3 p s t) i = ix3 p s i :=
  funext fun a => Fin.ext (by match a with | ⟨0, _⟩ => rfl | ⟨1, _⟩ => rfl | ⟨2, _⟩ => rfl)
/-- Second chain, first factor, right operand at (t, i). -/
theorem ridx_v6 (t : Fin 32) (i : Fin 4096) : Read.ridx_main_v6 (ix3 p s t) i = ix2 t i :=
  funext fun a => Fin.ext (by match a with | ⟨0, _⟩ => rfl | ⟨1, _⟩ => rfl)
/-- Second chain, second factor, left operand at (p, s, t). -/
theorem lidx_v7 (q : Fin 64) (t : Fin 32) : Read.lidx_main_v7 (ix3 p s q) t = ix3 p s t :=
  funext fun a => Fin.ext (by match a with | ⟨0, _⟩ => rfl | ⟨1, _⟩ => rfl | ⟨2, _⟩ => rfl)
/-- Second chain, second factor, right operand at (q, t). -/
theorem ridx_v7 (q : Fin 64) (t : Fin 32) : Read.ridx_main_v7 (ix3 p s q) t = ix2 q t :=
  funext fun a => Fin.ext (by match a with | ⟨0, _⟩ => rfl | ⟨1, _⟩ => rfl)
/-- Second chain, third factor, left operand at (p, s, q). -/
theorem lidx_v8 (r : Fin 32) (q : Fin 64) : Read.lidx_main_v8 (ix3 p s r) q = ix3 p s q :=
  funext fun a => Fin.ext (by match a with | ⟨0, _⟩ => rfl | ⟨1, _⟩ => rfl | ⟨2, _⟩ => rfl)
/-- Second chain, third factor, right operand at (r, q). -/
theorem ridx_v8 (r : Fin 32) (q : Fin 64) : Read.ridx_main_v8 (ix3 p s r) q = ix2 r q :=
  funext fun a => Fin.ext (by match a with | ⟨0, _⟩ => rfl | ⟨1, _⟩ => rfl)
/-- Second chain, up-projection, left operand at (p, s, r). -/
theorem lidx_v9 (o : Fin 4096) (r : Fin 32) : Read.lidx_main_v9 (ix3 p s o) r = ix3 p s r :=
  funext fun a => Fin.ext (by match a with | ⟨0, _⟩ => rfl | ⟨1, _⟩ => rfl | ⟨2, _⟩ => rfl)
/-- Second chain, up-projection, right operand: the up-projection at (o, r). -/
theorem ridx_v9 (o : Fin 4096) (r : Fin 32) : Read.ridx_main_v9 (ix3 p s o) r = ix2 o r :=
  funext fun a => Fin.ext (by match a with | ⟨0, _⟩ => rfl | ⟨1, _⟩ => rfl)

end Indices

/-- The reference's last stage at (p, s, o) is the unfolded entry. -/
theorem ref_apply (x0 : FVec Ideal S4x2048x4096 .f32) (x1 : FVec Ideal S4096x4096 .f32) (x2 : FVec Ideal S4096 .f32)
    (x3 : FVec Ideal S64x4096 .f32) (x4 : FVec Ideal S4096x64 .f32) (x5 : FVec Ideal S32x4096 .f32)
    (x6 : FVec Ideal S64x32 .f32) (x7 : FVec Ideal S32x64 .f32) (x8 : FVec Ideal S4096x32 .f32)
    (p : Fin 4) (s : Fin 2048) (o : Fin 4096) :
    Cert.ReferenceIdeal.Read.val_main_v15 (F := Ideal) x0 x1 x2 x3 x4 x5 x6 x7 x8 (ix3 p s o)
      = Cert.Lora.refEntry (Ideal.ofBits .f32 0x40800000#32) (Ideal.ofBits .f32 0x40000000#32)
          (fun i => x0 (ix3 p s i)) (fun i => x1 (ix2 o i)) (x2 (ix1 o))
          (fun r i => x3 (ix2 r i)) (fun r => x4 (ix2 o r)) (fun t i => x5 (ix2 t i))
          (fun q t => x6 (ix2 q t)) (fun r q => x7 (ix2 r q)) (fun r => x8 (ix2 o r)) := by
  -- Open the stages from the last one inwards: the three sums, then the two scalings and the bias.
  rw [Read.val_main_v15_apply, Read.val_main_v12_apply, Read.val_main_v14_apply, Read.val_main_v3_apply,
    Read.val_main_v11_apply, Read.val_main_v0_apply, Read.val_main_v2_apply, Read.val_main_v1_apply,
    Read.val_main_v10_apply, Read.val_main_v13_apply, Read.val_main_cst_apply, Read.val_main_cst_0_apply,
    Read.val_main_v5_apply, Read.val_main_v9_apply]
  -- Open the inner products of the two chains under their sums, and name every read by its coordinates.
  simp only [lidx_v0, ridx_v0, idx_v2_v1, lidx_v5, ridx_v5, lidx_v9, ridx_v9, Read.val_main_v4_apply, lidx_v4, ridx_v4,
    Read.val_main_v8_apply, lidx_v8, ridx_v8, Read.val_main_v7_apply, lidx_v7, ridx_v7, Read.val_main_v6_apply,
    lidx_v6, ridx_v6, Ideal.addf_def, Ideal.mulf_def, Ideal.ofBits_def]
  -- What is left is the unfolded entry, term for term.
  unfold Cert.Lora.refEntry
  rfl

end Cert.Lora.RefValue

end
-- ==== Proof.Finite.lean ====
/-
  The precondition read back: every entry of every input array is a real number.

  The precondition is the conjunction, over the nine inputs, of "every |entry| is below +∞"; on the extended reals
  an entry whose absolute value is below +∞ is neither +∞ nor -∞, so it is the image of a real.
-/
import proofs.«160152_j10479720202377_1_alg».proof.Defs
import proofs.«160152_j10479720202377_1_alg».proof.Proof.Gen.Pre_finite_inputs
import Idealize.ShloMosaic.Lib.ReduceAll
import Idealize.ShloMosaic.Lib.ValueIdx

noncomputable section

namespace Cert.Lora.Finite

open Idealize.ShloMosaic Cert.Pre_finite_inputs

/-- An extended real whose absolute value, taken as the larger of it and its negation, lies below +∞ is a real number:
    at -∞ and at +∞ that larger value is +∞ itself. -/
theorem exists_real_of_abs_lt_top (a : EReal) (h : max a (-a) < ⊤) : ∃ r : ℝ, a = (r : EReal) := by
  induction a using EReal.rec with
  | bot => simp at h
  | coe r => exact ⟨r, rfl⟩
  | top => simp at h

/-- The single-precision pattern with all exponent bits set, sign and fraction clear, denotes +∞. -/
theorem inf_eq_top : Ideal.ofBits .f32 0x7F800000#32 = (⊤ : EReal) := by
  simp [Ideal.ofBits, Ideal.ieee]

/-- Over any shape: where the elementwise test "|x| is below the +∞ constant spread over the array" holds at an index,
    the entry of `x` at that index is a real number. -/
theorem real_of_cmp {s : Shape} (x : FVec Ideal s .f32) (dims : Fin S_.rank → Fin s.rank)
    (hb : S_.BroadcastsInDim s dims) (i : s.Idx)
    (h : cmpf .olt (Host.absf x) (broadcastInDim s dims hb (constant (F := Ideal) S_ .f32 0x7F800000#32)) i = 1#1) :
    ∃ r : ℝ, (x i : EReal) = (r : EReal) := by
  -- at one index the test is the strict order of the extended reals between max (x i) (-(x i)) and the constant
  have h' : Ideal.cmp .olt (max (x i) (-(x i))) (Ideal.ofBits .f32 0x7F800000#32) = 1#1 := h
  rw [inf_eq_top] at h'
  apply exists_real_of_abs_lt_top
  by_contra hn
  simp [Ideal.cmp, hn] at h'

/-- The scalar shape has one index. -/
instance : Subsingleton S_.Idx := ⟨fun a b => funext fun d => d.elim0⟩

/-- Over any shape: if the conjunction over all indices of the test "|x| is below +∞" comes out true, every entry of
    `x` is a real number. -/
theorem real_of_all {s : Shape} {axes : List (Fin s.rank)} (x : FVec Ideal s .f32) (dims : Fin S_.rank → Fin s.rank)
    (hb : S_.BroadcastsInDim s dims) (hr : s.ReducesTo axes S_) (hu : 0 < S_.numel) (init : IVec S_ 1)
    (h : Host.reduce IntOp.andi
      (cmpf .olt (Host.absf x) (broadcastInDim s dims hb (constant (F := Ideal) S_ .f32 0x7F800000#32))) init hr hu
        ValueIdx.ix0 = 1#1) (i : s.Idx) :
    ∃ r : ℝ, (x i : EReal) = (r : EReal) :=
  real_of_cmp x dims hb i (Host.reduce_andi_all _ init hr hu ValueIdx.ix0 h i)

/-- If the printed precondition evaluates to true on nine arrays of extended reals, every entry of each of them is a
    real number. -/
theorem real_of_pre (x0 : FVec Ideal S4x2048x4096 .f32) (x1 : FVec Ideal S4096x4096 .f32) (x2 : FVec Ideal S4096 .f32)
    (x3 : FVec Ideal S64x4096 .f32) (x4 : FVec Ideal S4096x64 .f32) (x5 : FVec Ideal S32x4096 .f32)
    (x6 : FVec Ideal S64x32 .f32) (x7 : FVec Ideal S32x64 .f32) (x8 : FVec Ideal S4096x32 .f32)
    (h : Cert.Pre_finite_inputs.fn (F := Ideal) x0 x1 x2 x3 x4 x5 x6 x7 x8 = fun _ => 1#1) :
    (∀ i, ∃ r : ℝ, (x0 i : EReal) = (r : EReal)) ∧ (∀ i, ∃ r : ℝ, (x1 i : EReal) = (r : EReal))
      ∧ (∀ i, ∃ r : ℝ, (x2 i : EReal) = (r : EReal)) ∧ (∀ i, ∃ r : ℝ, (x3 i : EReal) = (r : EReal))
      ∧ (∀ i, ∃ r : ℝ, (x4 i : EReal) = (r : EReal)) ∧ (∀ i, ∃ r : ℝ, (x5 i : EReal) = (r : EReal))
      ∧ (∀ i, ∃ r : ℝ, (x6 i : EReal) = (r : EReal)) ∧ (∀ i, ∃ r : ℝ, (x7 i : EReal) = (r : EReal))
      ∧ (∀ i, ∃ r : ℝ, (x8 i : EReal) = (r : EReal)) := by
  -- the precondition is a scalar; read it at its one index
  have h0 := congrFun h ValueIdx.ix0
  dsimp only [fn, fn_part1, fn_part2] at h0
  -- it is a left-nested conjunction of nine conjuncts, one per input: peel them off from the last to the first
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  -- each conjunct is "all |entries| of that input are below +∞"
  exact ⟨real_of_all x0 _ _ _ _ _ h0, real_of_all x1 _ _ _ _ _ h1, real_of_all x2 _ _ _ _ _ h2,
    real_of_all x3 _ _ _ _ _ h3, real_of_all x4 _ _ _ _ _ h4, real_of_all x5 _ _ _ _ _ h5,
    real_of_all x6 _ _ _ _ _ h6, real_of_all x7 _ _ _ _ _ h7, real_of_all x8 _ _ _ _ _ h8⟩

end Cert.Lora.Finite

end
-- ==== Proof.Bridge.lean ====
/-
  The kernel's entry is the reference's entry.

  With the three arrays the region finds read back to the inputs, an entry of the array the kernel writes is the
  folded form of Proof/LoraAlgebra.lean over the input rows; the reference's result at the same place is the unfolded
  form; the precondition makes every input entry a real and the two scale factors are the reals 4 and 2, so the two
  forms are equal.
-/
import proofs.«160152_j10479720202377_1_alg».proof.Defs
import proofs.«160152_j10479720202377_1_alg».proof.Proof.KernelBlock
import proofs.«160152_j10479720202377_1_alg».proof.Proof.HostPrefix
import proofs.«160152_j10479720202377_1_alg».proof.Proof.RefValue
import proofs.«160152_j10479720202377_1_alg».proof.Proof.Finite
import proofs.«160152_j10479720202377_1_alg».proof.Proof.LoraAlgebra
import Mathlib.Tactic.NormNum

set_option maxRecDepth 16384

noncomputable section

open scoped BigOperators

namespace Cert.Lora.Bridge

open Idealize.ShloMosaic Idealize.ShloMosaic.TcCoe Idealize.ShloMosaic.ValueIdx Idealize.SL.Sem

/-- The scale factor of the first update is the real 4. -/
theorem four : Ideal.ofBits .f32 0x40800000#32 = ((4 : ℝ) : EReal) := by
  -- sign bit clear, exponent field 129, fraction field 0
  have hs : ((0x40800000#32 : BitVec 32).extractLsb' (8 + 23) 1 == 1#1) = false := by decide
  have he : ((0x40800000#32 : BitVec 32).extractLsb' 23 8).toNat = 129 := by decide
  have hf : ((0x40800000#32 : BitVec 32).extractLsb' 0 23).toNat = 0 := by decide
  show Ideal.ieee 8 23 (0x40800000#32 : BitVec 32) = _
  unfold Ideal.ieee
  simp only [hs, he, hf]
  -- a normal number: (2^23 + 0) · 2^(129 - 127 - 23) = 2^23 · 2^(-21) = 4
  norm_num

/-- The scale factor of the second update is the real 2. -/
theorem two : Ideal.ofBits .f32 0x40000000#32 = ((2 : ℝ) : EReal) := by
  -- sign bit clear, exponent field 128, fraction field 0
  have hs : ((0x40000000#32 : BitVec 32).extractLsb' (8 + 23) 1 == 1#1) = false := by decide
  have he : ((0x40000000#32 : BitVec 32).extractLsb' 23 8).toNat = 128 := by decide
  have hf : ((0x40000000#32 : BitVec 32).extractLsb' 0 23).toNat = 0 := by decide
  show Ideal.ieee 8 23 (0x40000000#32 : BitVec 32) = _
  unfold Ideal.ieee
  simp only [hs, he, hf]
  -- a normal number: (2^23 + 0) · 2^(128 - 127 - 23) = 2^23 · 2^(-22) = 2
  norm_num

/-- Over nine arrays all of whose entries are reals, the folded entry over row (p, s) of the first and row `o` of the
    weight and of the two up-projections is the unfolded entry over the same rows: name a real behind every entry,
    read the two scale factors as 4 and 2, and the two forms agree by Proof/LoraAlgebra.lean. -/
theorem kerEntry_eq_refEntry_of_real
    (x0 : FVec Ideal Cert.KernelIdeal.S4x2048x4096 .f32) (x1 : FVec Ideal Cert.KernelIdeal.S4096x4096 .f32) (x2 : FVec Ideal Cert.KernelIdeal.S4096 .f32)
    (x3 : FVec Ideal Cert.KernelIdeal.S64x4096 .f32) (x4 : FVec Ideal Cert.KernelIdeal.S4096x64 .f32) (x5 : FVec Ideal Cert.KernelIdeal.S32x4096 .f32)
    (x6 : FVec Ideal Cert.KernelIdeal.S64x32 .f32) (x7 : FVec Ideal Cert.KernelIdeal.S32x64 .f32) (x8 : FVec Ideal Cert.KernelIdeal.S4096x32 .f32)
    (h0 : ∀ i, ∃ r : ℝ, (x0 i : EReal) = (r : EReal)) (h1 : ∀ i, ∃ r : ℝ, (x1 i : EReal) = (r : EReal))
    (h2 : ∀ i, ∃ r : ℝ, (x2 i : EReal) = (r : EReal)) (h3 : ∀ i, ∃ r : ℝ, (x3 i : EReal) = (r : EReal))
    (h4 : ∀ i, ∃ r : ℝ, (x4 i : EReal) = (r : EReal)) (h5 : ∀ i, ∃ r : ℝ, (x5 i : EReal) = (r : EReal))
    (h6 : ∀ i, ∃ r : ℝ, (x6 i : EReal) = (r : EReal)) (h7 : ∀ i, ∃ r : ℝ, (x7 i : EReal) = (r : EReal))
    (h8 : ∀ i, ∃ r : ℝ, (x8 i : EReal) = (r : EReal))
    (p : Fin 4) (s : Fin 2048) (o : Fin 4096) :
    Cert.Lora.kerEntry (Ideal.ofBits .f32 0x40800000#32) (Ideal.ofBits .f32 0x40000000#32)
        (fun i => x0 (ix3 p s i)) (fun i => x1 (ix2 o i)) (x2 (ix1 o))
        (fun r i => x3 (ix2 r i)) (fun r => x4 (ix2 o r)) (fun t i => x5 (ix2 t i))
        (fun q t => x6 (ix2 q t)) (fun r q => x7 (ix2 r q)) (fun r => x8 (ix2 o r))
      = Cert.Lora.refEntry (Ideal.ofBits .f32 0x40800000#32) (Ideal.ofBits .f32 0x40000000#32)
        (fun i => x0 (ix3 p s i)) (fun i => x1 (ix2 o i)) (x2 (ix1 o))
        (fun r i => x3 (ix2 r i)) (fun r => x4 (ix2 o r)) (fun t i => x5 (ix2 t i))
        (fun q t => x6 (ix2 q t)) (fun r q => x7 (ix2 r q)) (fun r => x8 (ix2 o r)) := by
  -- a real-valued array behind each of the nine
  choose y0 e0 using h0
  choose y1 e1 using h1
  choose y2 e2 using h2
  choose y3 e3 using h3
  choose y4 e4 using h4
  choose y5 e5 using h5
  choose y6 e6 using h6
  choose y7 e7 using h7
  choose y8 e8 using h8
  -- each row read off them is the image of a row of reals
  have a0 : (fun i : Fin 4096 => (x0 (ix3 p s i) : EReal)) = fun i => ((y0 (ix3 p s i) : ℝ) : EReal) :=
    funext fun i => e0 _
  have a1 : (fun i : Fin 4096 => (x1 (ix2 o i) : EReal)) = fun i => ((y1 (ix2 o i) : ℝ) : EReal) :=
    funext fun i => e1 _
  have a2 : (x2 (ix1 o) : EReal) = ((y2 (ix1 o) : ℝ) : EReal) := e2 _
  have a3 : (fun (r : Fin 64) (i : Fin 4096) => (x3 (ix2 r i) : EReal)) = fun r i => ((y3 (ix2 r i) : ℝ) : EReal) :=
    funext fun r => funext fun i => e3 _
  have a4 : (fun r : Fin 64 => (x4 (ix2 o r) : EReal)) = fun r => ((y4 (ix2 o r) : ℝ) : EReal) :=
    funext fun r => e4 _
  have a5 : (fun (t : Fin 32) (i : Fin 4096) => (x5 (ix2 t i) : EReal)) = fun t i => ((y5 (ix2 t i) : ℝ) : EReal) :=
    funext fun t => funext fun i => e5 _
  have a6 : (fun (q : Fin 64) (t : Fin 32) => (x6 (ix2 q t) : EReal)) = fun q t => ((y6 (ix2 q t) : ℝ) : EReal) :=
    funext fun q => funext fun t => e6 _
  have a7 : (fun (r : Fin 32) (q : Fin 64) => (x7 (ix2 r q) : EReal)) = fun r q => ((y7 (ix2 r q) : ℝ) : EReal) :=
    funext fun r => funext fun q => e7 _
  have a8 : (fun r : Fin 32 => (x8 (ix2 o r) : EReal)) = fun r => ((y8 (ix2 o r) : ℝ) : EReal) :=
    funext fun r => e8 _
  rw [four, two, a0, a1, a2, a3, a4, a5, a6, a7, a8]
  exact Cert.Lora.kerEntry_eq_refEntry 4 2 (fun i => y0 (ix3 p s i)) (fun i => y1 (ix2 o i)) (y2 (ix1 o))
    (fun r i => y3 (ix2 r i)) (fun r => y4 (ix2 o r)) (fun t i => y5 (ix2 t i))
    (fun q t => y6 (ix2 q t)) (fun r q => y7 (ix2 r q)) (fun r => y8 (ix2 o r))

/-- Entry (2048·p + s, o) of the array the kernel writes is the folded entry over row (p, s) of the activations and
    row `o` of the dense weight and of the two up-projections: the activation matrix the region finds has that row of
    the input as its row 2048·p + s, the weight it finds is the folded weight transposed, and the bias row is the bias. -/
theorem outEntry_eq_kerEntry
    (m : (ℓ : Loc Cert.KernelIdeal.nD Cert.KernelIdeal.τ Cert.KernelIdeal.sig) → Buf (Elt Ideal) ℓ)
    (c : Dev Cert.KernelIdeal.nD) (p : Fin 4) (s : Fin 2048) (o : Fin 4096) :
    Cert.Lora.Block.outEntry m c (⟨2048 * p.val + s.val, by omega⟩ : Fin 8192) o
      = Cert.Lora.kerEntry (Ideal.ofBits .f32 0x40800000#32) (Ideal.ofBits .f32 0x40000000#32)
          (fun i => ((m ((c.tc : Thread Cert.KernelIdeal.nD Cert.KernelIdeal.τ).loc Cert.KernelIdeal.main_arg0)) : Cert.KernelIdeal.S4x2048x4096.Idx → EReal) (ix3 p s i))
          (fun i => ((m ((c.tc : Thread Cert.KernelIdeal.nD Cert.KernelIdeal.τ).loc Cert.KernelIdeal.main_arg1)) : Cert.KernelIdeal.S4096x4096.Idx → EReal) (ix2 o i))
          (((m ((c.tc : Thread Cert.KernelIdeal.nD Cert.KernelIdeal.τ).loc Cert.KernelIdeal.main_arg2)) : Cert.KernelIdeal.S4096.Idx → EReal) (ix1 o))
          (fun r i => ((m ((c.tc : Thread Cert.KernelIdeal.nD Cert.KernelIdeal.τ).loc Cert.KernelIdeal.main_arg3)) : Cert.KernelIdeal.S64x4096.Idx → EReal) (ix2 r i))
          (fun r => ((m ((c.tc : Thread Cert.KernelIdeal.nD Cert.KernelIdeal.τ).loc Cert.KernelIdeal.main_arg4)) : Cert.KernelIdeal.S4096x64.Idx → EReal) (ix2 o r))
          (fun t i => ((m ((c.tc : Thread Cert.KernelIdeal.nD Cert.KernelIdeal.τ).loc Cert.KernelIdeal.main_arg5)) : Cert.KernelIdeal.S32x4096.Idx → EReal) (ix2 t i))
          (fun q t => ((m ((c.tc : Thread Cert.KernelIdeal.nD Cert.KernelIdeal.τ).loc Cert.KernelIdeal.main_arg6)) : Cert.KernelIdeal.S64x32.Idx → EReal) (ix2 q t))
          (fun r q => ((m ((c.tc : Thread Cert.KernelIdeal.nD Cert.KernelIdeal.τ).loc Cert.KernelIdeal.main_arg7)) : Cert.KernelIdeal.S32x64.Idx → EReal) (ix2 r q))
          (fun r => ((m ((c.tc : Thread Cert.KernelIdeal.nD Cert.KernelIdeal.τ).loc Cert.KernelIdeal.main_arg8)) : Cert.KernelIdeal.S4096x32.Idx → EReal) (ix2 o r)) := by
  unfold Cert.Lora.Block.outEntry Cert.Lora.kerEntry
  -- the bias term by the bias row; under the two sums, one product at a time
  refine congrArg₂ (· + ·)
    (congrArg (0 + ·) (Finset.sum_congr rfl fun k _ => Finset.sum_congr rfl fun κ _ => ?_))
    (Cert.Lora.HostPrefix.bias_apply m c o)
  rw [show Cert.Lora.Block.acts m c (ix2 (⟨2048 * p.val + s.val, by omega⟩ : Fin 8192) (Cert.Lora.pos k κ)) = _ from
        Cert.Lora.HostPrefix.acts_apply m c p s (Cert.Lora.pos k κ),
      show Cert.Lora.Block.weight m c (ix2 (Cert.Lora.pos k κ) o) = _ from
        Cert.Lora.HostPrefix.weight_apply m c (Cert.Lora.pos k κ) o]

/-- Under the precondition, entry (2048·p + s, o) of the array the kernel writes is the reference's result at (p, s, o). -/
theorem entry_eq (m : (ℓ : Loc Cert.KernelIdeal.nD Cert.KernelIdeal.τ Cert.KernelIdeal.sig) → Buf (Elt Ideal) ℓ)
    (hpre : Cert.Pre_KernelIdeal m) (c : Dev Cert.KernelIdeal.nD) (p : Fin 4) (s : Fin 2048) (o : Fin 4096) :
    Cert.Lora.Block.outEntry m c (⟨2048 * p.val + s.val, by omega⟩ : Fin 8192) o
      = Cert.ReferenceIdeal.Read.val_main_v15 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (ix3 p s o) := by
  rw [Cert.Lora.RefValue.ref_apply, outEntry_eq_kerEntry]
  -- the precondition on this device makes every entry of the nine inputs a real
  obtain ⟨h0, h1, h2, h3, h4, h5, h6, h7, h8⟩ := Cert.Lora.Finite.real_of_pre _ _ _ _ _ _ _ _ _ (hpre c)
  exact kerEntry_eq_refEntry_of_real _ _ _ _ _ _ _ _ _ h0 h1 h2 h3 h4 h5 h6 h7 h8 p s o

end Cert.Lora.Bridge

end
-- ==== Proof.lean ====
/-
  A linear layer with two low-rank updates: the kernel program against its reference.

  The reference computes, for every position (p, s) and output feature o,
    ((Σ_i x·W + b) + 4 · Σ_r (Σ_i x·A)·B) + 2 · Σ_r (Σ_q (Σ_t (Σ_i x·A₁)·A₂)·B₁)·B₂,
  applying the thin matrices to the activations one after the other. The kernel program first multiplies the
  thin matrices out into the dense weight, W + 4·B·A + 2·B₂·B₁·A₂·A₁, and then runs one blocked matrix product:
  each 1024 × 1024 output block is built over four grid points, a scratch block cleared at the first and added
  into at each, the bias added when the block is written back at the fourth. On the extended reals a change of
  float format is the identity, so the two programs differ only in where the products are distributed over the
  sums and in how the sum over the 4096 contracted places is grouped; the precondition makes every input entry a
  real, and on reals those rearrangements are equalities (Proof/LoraAlgebra.lean).

  The pieces: what one run of the kernel body leaves (Proof/KernelPieces.lean), one output block entry by entry
  (Proof/KernelBlock.lean), the written array and the program's run (Proof/KernelValue.lean), the arrays the region
  finds read back to the inputs (Proof/HostPrefix.lean), the reference's result at an index (Proof/RefValue.lean),
  the precondition read back (Proof/Finite.lean), and the equality of the two entries (Proof/Bridge.lean).
  The three programs' runs without faults and with the arguments unchanged are the generated frame theorems; the
  idealization rewrote nothing, so there is nothing to preserve.
-/
import proofs.«160152_j10479720202377_1_alg».proof.Defs
import proofs.«160152_j10479720202377_1_alg».proof.Proof.Gen.Kernel
import proofs.«160152_j10479720202377_1_alg».proof.Proof.Gen.Kernel.Frame
import proofs.«160152_j10479720202377_1_alg».proof.Proof.Gen.KernelIdeal
import proofs.«160152_j10479720202377_1_alg».proof.Proof.Gen.KernelIdeal.Frame
import proofs.«160152_j10479720202377_1_alg».proof.Proof.Gen.ReferenceIdeal
import proofs.«160152_j10479720202377_1_alg».proof.Proof.Gen.ReferenceIdeal.Run
import proofs.«160152_j10479720202377_1_alg».proof.Proof.Gen.ReferenceIdeal.Read
import proofs.«160152_j10479720202377_1_alg».proof.Proof.Gen.Pre_finite_inputs
import proofs.«160152_j10479720202377_1_alg».proof.Proof.KernelValue
import proofs.«160152_j10479720202377_1_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel program as printed runs to the end without a fault and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the nine inputs, both programs end with the same result array: the kernel program at
    the array of its blocked product laid out as [4, 2048, 4096], the reference at its last stage, and entry by entry
    these are the folded and the unfolded form of one real number. -/
theorem algebraic : Cert.algebraic_KernelIdeal_ReferenceIdeal := by
  intro m ρ m' ρ' hpre hagree
  refine ⟨fun c => Cert.Lora.KernelValue.result m c, Cert.Lora.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  funext i
  have h0 : (i 0).val < 4 := (i 0).isLt
  have h1 : (i 1).val < 2048 := (i 1).isLt
  have h2 : (i 2).val < 4096 := (i 2).isLt
  have ei : i = ix3 (⟨(i 0).val, h0⟩ : Fin 4) (⟨(i 1).val, h1⟩ : Fin 2048) (⟨(i 2).val, h2⟩ : Fin 4096) :=
    funext fun a => by match a with | ⟨0, _⟩ => rfl | ⟨1, _⟩ => rfl | ⟨2, _⟩ => rfl
  refine (congrArg _ ei).trans ?_
  exact (Cert.Lora.Bridge.entry_eq m hpre c ⟨(i 0).val, h0⟩ ⟨(i 1).val, h1⟩ ⟨(i 2).val, h2⟩).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
